-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x64 : Shape := ⟨2, ![128, 64]⟩
abbrev S50000x64 : Shape := ⟨2, ![50000, 64]⟩
abbrev S5000x128 : Shape := ⟨2, ![5000, 128]⟩
abbrev S5000x64 : Shape := ⟨2, ![5000, 64]⟩
abbrev S800000x1 : Shape := ⟨2, ![800000, 1]⟩
abbrev S_ : Shape := ⟨0, ![]⟩
abbrev S800000x64 : Shape := ⟨2, ![800000, 64]⟩

abbrev nBuf : Space → Nat
  | .hbm => 23
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Product.lean ====
/-
  The first region's array, at the ideal instance. The body casts its two blocks to a narrower format (the identity
  on extended reals) and multiplies them into a zero accumulator, so at output row `p`, column `q` of a block it
  leaves `∑ k, x[p, k] · w[k, q]` over the 128 contracted positions. Block `t` of the left operand is rows
  `5000 t … 5000 t + 4999` of the array, the right operand's one block is the whole array, and block `t` of the
  output is rows `5000 t … 5000 t + 4999`; the ten output blocks tile the 50000 rows. Hence the array the region
  leaves is the whole product `(r, q) ↦ ∑ k, x[r, k] · w[k, q]` of the two arrays as the region found them.
-/
import proofs.«156027_j19662360281445_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product

open Cert.KernelIdeal Cert.KernelIdeal.Gen
open Idealize.ShloMosaic Idealize.ShloMosaic.TcCoe Idealize.SL.Sem
open Idealize.ShloMosaic.Pipeline (Dat)

/-! ## The contraction's operand indices, axis by axis -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `i 0`, position `k` of a left block. -/
abbrev lrow (i : S5000x64.Idx) (k : Fin 128) : S5000x128.Idx := fun a => match a with
  | ⟨0, _⟩ => ⟨(i 0).val, (i 0).isLt⟩
  | ⟨1, _⟩ => ⟨k.val, k.isLt⟩
/-- Position `k`, column `i 1` of the right operand. -/
abbrev rcol (i : S5000x64.Idx) (k : Fin 128) : S128x64.Idx := fun a => match a with
  | ⟨0, _⟩ => ⟨k.val, k.isLt⟩
  | ⟨1, _⟩ => ⟨(i 1).val, (i 1).isLt⟩

/-- What the body stores, at an index of the block: the sum over the contracted axis of the products. -/
theorem pay_apply (x0 : FVec Ideal S5000x128 .f32) (x1 : FVec Ideal S128x64 .f32) (i : S5000x64.Idx) :
    k0_pay1 (F := Ideal) x0 x1 i = ∑ k : Fin 128, x0 (lrow i k) * x1 (rcol i k) := by
  unfold k0_pay1
  show FloatOps.matmul dot_S5000x128_S128x64_S5000x64_1_0_0_1_n_n none (truncf .bf16 x0 bitsLt_bf16_f32) (truncf .bf16 x1 bitsLt_bf16_f32) (constant S5000x64 .f32 0x00000000#32) i = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = lrow i k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx i ((ValueIdx.contrEquiv1 dot_S5000x128_S128x64_S5000x64_1_0_0_1_n_n 128 rfl rfl).symm k) = rcol i k := funext fun a => Fin.ext (by
    match a with
    | ⟨0, _⟩ => exact (rhs_axis0 _ _).trans hk
    | ⟨1, _⟩ => exact rhs_axis1 _ _)
  rw [el, er]
  rfl

/-! ## From the blocks to the array -/

/-- Row `i 0`, position `k` of the left array. -/
abbrev arow (i : S50000x64.Idx) (k : Fin 128) : S50000x128.Idx := fun a => match a with
  | ⟨0, _⟩ => ⟨(i 0).val, (i 0).isLt⟩
  | ⟨1, _⟩ => ⟨k.val, k.isLt⟩
/-- Position `k`, column `i 1` of the right array. -/
abbrev wcol (i : S50000x64.Idx) (k : Fin 128) : S128x64.Idx := fun a => match a with
  | ⟨0, _⟩ => ⟨k.val, k.isLt⟩
  | ⟨1, _⟩ => ⟨(i 1).val, (i 1).isLt⟩

/-- The whole product of a 50000 × 128 array and a 128 × 64 array over the extended reals. -/
def whole (x : FVec Ideal S50000x128 .f32) (w : FVec Ideal S128x64 .f32) : FVec Ideal S50000x64 .f32 :=
  fun i => ∑ k : Fin 128, x (arow i k) * w (wcol i k)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand's and the output's blocks move down the rows with the point,
    the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left operand's block at point `t` is entry (5000 t + y₀, y₁) of the array. -/
theorem xblk_apply (c : Dev nD) (t : Fin cfg0.N) (y : S5000x128.Idx) (i : S50000x128.Idx)
    (h0 : (i 0).val = t.val * 5000 + (y 0).val) (h1 : (i 1).val = (y 1).val) :
    (iblk0 V c 0 t : FVec Ideal S5000x128 .f32) y = (V c main_arg0 : FVec Ideal S50000x128 .f32) i := by
  obtain ⟨e0, e1, -, -, -, -⟩ := idx_facts t
  unfold iblk0
  rw [View.read_apply]
  show (V c main_arg0 : FVec Ideal S50000x128 .f32) _ = _
  refine congrArg (V c main_arg0 : FVec Ideal S50000x128 .f32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right operand's block at any point is the array. -/
theorem wblk_apply (c : Dev nD) (t : Fin cfg0.N) (y : S128x64.Idx) (i : S128x64.Idx)
    (h0 : (i 0).val = (y 0).val) (h1 : (i 1).val = (y 1).val) :
    (iblk0 V c 1 t : FVec Ideal S128x64 .f32) y = (V c main_arg4 : FVec Ideal S128x64 .f32) i := by
  obtain ⟨-, -, e2, e3, -, -⟩ := idx_facts t
  unfold iblk0
  rw [View.read_apply]
  show (V c main_arg4 : FVec Ideal S128x64 .f32) _ = _
  refine congrArg (V c main_arg4 : FVec Ideal S128x64 .f32) (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- What point `t` writes back is block `t` of the whole product of the arrays as the region found them. -/
theorem flushed_eq (c : Dev nD) (t : Fin cfg0.N) :
    (dat0 V c).flushed 2 t = ((cfg0.win 2).blk t).view.read (Elt Ideal) (whole (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx_facts t
  funext j
  show k0_pay1 (F := Ideal) (iblk0 V c 0 t) (iblk0 V c 1 t) j = whole (V c main_arg0) (V c main_arg4) (((cfg0.win 2).blk t).view.emb j)
  refine (pay_apply (iblk0 V c 0 t) (iblk0 V c 1 t) j).trans ?_
  unfold whole
  refine Finset.sum_congr rfl fun k _ => ?_
  have hr : ((((cfg0.win 2).blk t).view.emb j) 0).val = t.val * 5000 + (j 0).val := by
    show win0_2.index t (0 : Fin 2) * 5000 + 1 * (j 0).val = _; rw [e4]; omega
  have hq : ((((cfg0.win 2).blk t).view.emb j) 1).val = (j 1).val := by
    show win0_2.index t (1 : Fin 2) * 64 + 1 * (j 1).val = _; rw [e5]; omega
  rw [xblk_apply V c t (lrow j k) (arow (((cfg0.win 2).blk t).view.emb j) k) hr rfl,
    wblk_apply V c t (rcol j k) (wcol (((cfg0.win 2).blk t).view.emb j) k) rfl hq]

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` of the output lies in the block of point `r / 5000`: the ten blocks tile the array. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have ht : (i 0).val / 5000 < cfg0.N := by rw [show cfg0.N = 10 from N_0]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The array the first region leaves: the whole product of the two arrays it found. -/
theorem final (c : Dev nD) : (dat0 V c).arrAt 2 cfg0.N = whole (V c main_arg0) (V c main_arg4) :=
  (dat0 V c).arrAt_eq_of_cover 2 (whole (V c main_arg0) (V c main_arg4)) (fun t _ => flushed_eq V c t) cover

end Cert.KernelIdeal.Product

end
-- ==== Proof.Rectify.lean ====
/-
  The second region's array, at the ideal instance. The body takes, entry by entry, the larger of its block and
  zero; block `t` of its operand and of its output are rows `5000 t … 5000 t + 4999` of their arrays, and the ten
  output blocks tile the 50000 rows. Hence the array the region leaves is `max(a, 0)` entry by entry of the array `a`
  it found, which is the host's `maximum` of `a` and the zero constant broadcast to the array's shape.
-/
import proofs.«156027_j19662360281445_1_alg».proof.Proof.Gen.KernelIdeal.Frame
import Idealize.ShloMosaic.Lib.Pipeline.Value
import Idealize.ShloMosaic.Lib.ValueIdx

set_option maxRecDepth 16384

noncomputable section

namespace Cert.KernelIdeal.Rectify

open Cert.KernelIdeal Cert.KernelIdeal.Gen
open Idealize.ShloMosaic Idealize.ShloMosaic.TcCoe Idealize.SL.Sem
open Idealize.ShloMosaic.Pipeline (Dat)

/-- Entry by entry the larger of `a` and zero, spelt as the host spells it: the maximum of `a` and the zero constant
    broadcast to the array's shape. -/
def relu (a : FVec Ideal S50000x64 .f32) : FVec Ideal S50000x64 .f32 :=
  maximumf a (broadcastInDim S50000x64 ![] bcast_S_S50000x64 (constant (F := Ideal) S_ .f32 0x00000000#32))

theorem relu_apply (a : FVec Ideal S50000x64 .f32) (i : S50000x64.Idx) :
    relu a i = FloatOps.maximumf (a i) (FloatOps.ofBits (F := Ideal) .f32 0x00000000#32) := rfl

/-- What the body stores, at an index of the block: the larger of the loaded entry and zero. -/
theorem pay_apply (x : FVec Ideal S5000x64 .f32) (j : S5000x64.Idx) :
    k1_pay1 (F := Ideal) x j = FloatOps.maximumf (x j) (FloatOps.ofBits (F := Ideal) .f32 0x00000000#32) := by
  unfold k1_pay1
  show FloatOps.maximumf (shapeCast S5000x64 x shapeCasts_S5000x64_S5000x64 j) (broadcast S5000x64 (Scalar.ofBits (F := Ideal) .f32 0x00000000#32) j) = _
  rw [shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the operand's and the output's blocks move down the rows with the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Entry `y` of the operand's block at point `t` is entry (5000 t + y₀, y₁) of the array. -/
theorem ablk_apply (c : Dev nD) (t : Fin cfg1.N) (y : S5000x64.Idx) (i : S50000x64.Idx)
    (h0 : (i 0).val = t.val * 5000 + (y 0).val) (h1 : (i 1).val = (y 1).val) :
    (iblk1 V c 0 t : FVec Ideal S5000x64 .f32) y = (V c main_v13 : FVec Ideal S50000x64 .f32) i := by
  obtain ⟨e0, e1, -, -⟩ := idx_facts t
  unfold iblk1
  rw [View.read_apply]
  show (V c main_v13 : FVec Ideal S50000x64 .f32) _ = _
  refine congrArg (V c main_v13 : FVec Ideal S50000x64 .f32) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- What point `t` writes back is block `t` of `relu` of the array the region found. -/
theorem flushed_eq (c : Dev nD) (t : Fin cfg1.N) :
    (dat1 V c).flushed 1 t = ((cfg1.win 1).blk t).view.read (Elt Ideal) (relu (V c main_v13)) := by
  show (cfg1.win 1).cut (grid1.coords t) ((dat1 V c).after 1 t) = _
  rw [after1_1]
  unfold out1_1
  rw [View.canon_unit_zero hz]
  simp only [View.ld_unit_zero (S := S5000x64) hz]
  obtain ⟨-, -, e2, e3⟩ := idx_facts t
  funext j
  show k1_pay1 (F := Ideal) (iblk1 V c 0 t) j = relu (V c main_v13) (((cfg1.win 1).blk t).view.emb j)
  refine (pay_apply (iblk1 V c 0 t) j).trans ?_
  have hr : ((((cfg1.win 1).blk t).view.emb j) 0).val = t.val * 5000 + (j 0).val := by
    show win1_1.index t (0 : Fin 2) * 5000 + 1 * (j 0).val = _; rw [e2]; omega
  have hq : ((((cfg1.win 1).blk t).view.emb j) 1).val = (j 1).val := by
    show win1_1.index t (1 : Fin 2) * 64 + 1 * (j 1).val = _; rw [e3]; omega
  rw [relu_apply, ablk_apply V c t j (((cfg1.win 1).blk t).view.emb j) hr hq]

/-- An index of the output array is in point `t`'s block iff each coordinate is in the block's range on its axis. -/
theorem mem_blk (t : Fin cfg1.N) (i : S50000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v14).slice (win1_1.rect t)).set ↔ _
  rw [View.set_slice_whole, Rect.mem_set_unit]
  exact Iff.rfl

/-- Row `r` of the output lies in the block of point `r / 5000`: the ten blocks tile the array. -/
theorem cover (i : S50000x64.Idx) : ∃ t : Fin cfg1.N, (cfg1.win 1).flush t = true ∧ i ∈ ((cfg1.win 1).blk t).view.set := by
  have hi0 : (i 0).val < 50000 := (i 0).isLt
  have hi1 : (i 1).val < 64 := (i 1).isLt
  have ht : (i 0).val / 5000 < cfg1.N := by rw [show cfg1.N = 10 from N_1]; omega
  obtain ⟨-, -, e2, e3⟩ := idx_facts ⟨(i 0).val / 5000, ht⟩
  refine ⟨⟨(i 0).val / 5000, ht⟩, flush1_1 _, ?_⟩
  rw [mem_blk]
  intro a
  match a with
  | ⟨0, _⟩ =>
    show win1_1.index ⟨(i 0).val / 5000, ht⟩ (0 : Fin 2) * 5000 ≤ (i 0).val ∧ (i 0).val < win1_1.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win1_1.index ⟨(i 0).val / 5000, ht⟩ (1 : Fin 2) * 64 ≤ (i 1).val ∧ (i 1).val < win1_1.index ⟨(i 0).val / 5000, ht⟩ (1 : Fin 2) * 64 + 64
    rw [e3]; omega

/-- The array the second region leaves: `relu` of the array it found. -/
theorem final (c : Dev nD) : (dat1 V c).arrAt 1 cfg1.N = relu (V c main_v13) :=
  (dat1 V c).arrAt_eq_of_cover 1 (relu (V c main_v13)) (fun t _ => flushed_eq V c t) cover

end Cert.KernelIdeal.Rectify

end
-- ==== Proof.Chain.lean ====
/-
  The host operations between the two regions, as ONE function of the first region's array and three of the
  arguments: the column indices wrapped into range, the rows of the first region's array gathered at them, each
  gathered row scaled by its edge's value, and the scaled rows added into a zero array at the row indices. Both
  programs apply this same chain, so nothing here opens it: after the stretch the aggregated array's buffer holds the
  chain applied to what the buffers it reads held before the stretch.
-/
import proofs.«156027_j19662360281445_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- Gather the rows of `s` at the wrapped column indices, scale row `e` by `val e`, and add the scaled rows into a
    zero array at the row indices. -/
def aggregate (s : FVec Ideal S50000x64 .f32) (row col : (⟨S800000, .i32⟩ : BufTy).Contents (Elt Ideal))
    (val : FVec Ideal S800000 .f32) : FVec Ideal S50000x64 .f32 :=
  Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 row) (mulf (F := Ideal) (broadcastInDim S800000x64 ![0, 1] bcast_S800000x1_S800000x64_0_1 (broadcastInDim S800000x1 ![0] bcast_S800000_S800000x1_0 val)) (Host.gather gather_S50000x64_S800000x1_S800000x64_1_0_n_n_0_1_164 s (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- After the stretch, from any contents `W`, the aggregated array's buffer holds the chain of what `W` has at the
    first region's array and at the row, column and value arguments. -/
theorem after_v13 (c : Dev nD) (W : Valuation τ sig (Elt Ideal)) :
    StableHlo.after (hostOps1 (F := Ideal)) W (Proc.devRef .tc main_v13)
      = aggregate (W (Proc.devRef .tc main_v0)) (W (Proc.devRef .tc main_arg1)) (W (Proc.devRef .tc main_arg2)) (W (Proc.devRef .tc main_arg3)) := by
  after_results
  rfl

end Cert.KernelIdeal.Chain

end
-- ==== Proof.KernelValue.lean ====
/-
  The idealized kernel's result as one function of its arguments: the whole product of the node features and the
  weights (the first region), the shared host chain over it (the gather at the wrapped column indices, the scaling by
  the edge values, the sum into the rows), and the larger of each entry and zero (the second region). The contents at
  each segment boundary are read one after the other: the first region's array is the product of the two argument
  arrays, which no earlier operation wrote; the stretch between the regions leaves the chain of that array and of three
  arguments the first region does not touch; the second region leaves the entrywise maximum with zero of what the
  stretch left.
-/
import proofs.«156027_j19662360281445_1_alg».proof.Proof.KernelRun
import proofs.«156027_j19662360281445_1_alg».proof.Proof.Product
import proofs.«156027_j19662360281445_1_alg».proof.Proof.Rectify
import proofs.«156027_j19662360281445_1_alg».proof.Proof.Chain

set_option maxRecDepth 16384

noncomputable section

namespace Cert.KernelIdeal.Whole

open Cert.KernelIdeal Cert.KernelIdeal.Gen
open Idealize.ShloMosaic Idealize.ShloMosaic.TcCoe Idealize.SL.Sem

/-- The result array as a function of the five argument arrays. -/
def result (x0 : FVec Ideal S50000x128 .f32) (x1 x2 : (⟨S800000, .i32⟩ : BufTy).Contents (Elt Ideal))
    (x3 : FVec Ideal S800000 .f32) (x4 : FVec Ideal S128x64 .f32) : FVec Ideal S50000x64 .f32 :=
  Rectify.relu (Chain.aggregate (Product.whole x0 x4) x1 x2 x3)

variable (m : (ℓ : Loc nD τ sig) → Buf (Elt Ideal) ℓ) (ρ : Dev nD → PrngReg)

/-- After the first region its output array holds the product of the feature and weight arguments. -/
theorem support_eq (c : Dev nD) :
    W1 m ρ c (Proc.devRef .tc main_v0)
      = Product.whole (m ((c.tc : Thread nD τ).loc main_arg0)) (m ((c.tc : Thread nD τ).loc main_arg4)) :=
  (W1_arr m ρ c 2).trans (Product.final (V0 m ρ) c)

/-- After the second region the result array holds `result` of the arguments. -/
theorem result_eq (c : Dev nD) :
    W3 m ρ c (Proc.devRef .tc main_v14)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (W3_arr m ρ c 1).trans ?_
  refine (Rectify.final (V2 m ρ) c).trans ?_
  unfold result
  refine congrArg Rectify.relu ?_
  show StableHlo.after hostOps1 (W1 m ρ c) (Proc.devRef .tc main_v13) = _
  rw [Chain.after_v13 c (W1 m ρ c), support_eq m ρ c, W1_of_ne m ρ c main_arg1 (by decide), W1_of_ne m ρ c main_arg2 (by decide),
    W1_of_ne m ρ c main_arg3 (by decide)]

/-- Every weakly fair execution of the idealized kernel terminates, nothing faulting, with the result array at
    `result` of the arguments and the arguments unchanged. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Result.run m ρ)

end Cert.KernelIdeal.Whole

end
-- ==== Proof.lean ====
/-
  A graph-convolution layer: `out = max(A · (X W), 0)`, where `X` is the 50000 × 128 array of node features, `W` the
  128 × 64 weights, and `A` the sparse adjacency given by 800000 edges (row index, column index, value):
  `(A · S)[r] = ∑ over edges e with row e = r of val e · S[col e]`.

  The kernel computes `S = X W` in a first region, ten blocks of 5000 rows, each block's rows multiplied by the whole of
  `W` into a zero accumulator after a cast to a narrower float format; then, on the host, gathers the rows of `S` at the
  column indices (wrapped into range), scales them by the edge values and adds them into a zero array at the row indices;
  and in a second region, again ten blocks of 5000 rows, takes the larger of each entry and zero. The reference does the
  product as one host contraction, then the very same host chain, then the maximum with a broadcast zero.

  Over the extended reals a change of float format is the identity and a product into a zero accumulator is the plain
  sum, so the first region's array is entry by entry `∑ k, X[r, k] · W[k, q]`, which is what the host contraction is; the
  host chain is shared and is never opened; and the second region's entrywise maximum with zero over tiling blocks is
  the host's maximum with the broadcast zero. No law of arithmetic beyond reading both sums at the same indices is used,
  so the finiteness of the inputs is not needed for the equality.

  The three frames are the generated ones (the reference's is its run with the result dropped); the idealization
  rewrote nothing, so there is nothing to preserve.
-/
import proofs.«156027_j19662360281445_1_alg».proof.Defs
import proofs.«156027_j19662360281445_1_alg».proof.Proof.Gen.Kernel
import proofs.«156027_j19662360281445_1_alg».proof.Proof.Gen.Kernel.Skeleton
import proofs.«156027_j19662360281445_1_alg».proof.Proof.Gen.Kernel.Launch
import proofs.«156027_j19662360281445_1_alg».proof.Proof.Gen.Kernel.Points
import proofs.«156027_j19662360281445_1_alg».proof.Proof.Gen.Kernel.Frame
import proofs.«156027_j19662360281445_1_alg».proof.Proof.Gen.KernelIdeal
import proofs.«156027_j19662360281445_1_alg».proof.Proof.Gen.KernelIdeal.Skeleton
import proofs.«156027_j19662360281445_1_alg».proof.Proof.Gen.KernelIdeal.Launch
import proofs.«156027_j19662360281445_1_alg».proof.Proof.Gen.KernelIdeal.Points
import proofs.«156027_j19662360281445_1_alg».proof.Proof.Gen.KernelIdeal.Frame
import proofs.«156027_j19662360281445_1_alg».proof.Proof.Gen.ReferenceIdeal
import proofs.«156027_j19662360281445_1_alg».proof.Proof.Gen.ReferenceIdeal.Run
import proofs.«156027_j19662360281445_1_alg».proof.Proof.Gen.ReferenceIdeal.Read
import proofs.«156027_j19662360281445_1_alg».proof.Proof.Gen.Pre_finite_inputs
import proofs.«156027_j19662360281445_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel's result function is the reference's: the product read at an index is the host contraction read at
    that index (the same sum over the 128 contracted positions of the same entries), and from there on the two are the
    same chain of host operations and the same maximum with zero. -/
theorem result_eq (x0 : FVec Ideal Cert.KernelIdeal.S50000x128 .f32)
    (x1 x2 : (⟨Cert.KernelIdeal.S800000, .i32⟩ : BufTy).Contents (Elt Ideal))
    (x3 : FVec Ideal Cert.KernelIdeal.S800000 .f32) (x4 : FVec Ideal Cert.KernelIdeal.S128x64 .f32) :
    Cert.KernelIdeal.Whole.result x0 x1 x2 x3 x4 = Cert.ReferenceIdeal.Read.val_main_v14 (F := Ideal) x0 x1 x2 x3 x4 := by
  have hs : Cert.KernelIdeal.Product.whole x0 x4 = Cert.ReferenceIdeal.Read.val_main_v0 (F := Ideal) x0 x4 :=
    funext fun i => (Cert.ReferenceIdeal.Read.val_main_v0_apply x0 x4 i).symm
  unfold Cert.KernelIdeal.Whole.result
  rw [hs]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the same function of the
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact (Cert.ReferenceIdeal.Read.val_main_v14_eq _ _ _ _ _).trans (result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
